-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) (main_arg1 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x2048x3 : Shape := ⟨3, ![16, 2048, 3]⟩
abbrev S16x3x2048 : Shape := ⟨3, ![16, 3, 2048]⟩
abbrev S16x2048x1 : Shape := ⟨3, ![16, 2048, 1]⟩
abbrev S16x1x2048 : Shape := ⟨3, ![16, 1, 2048]⟩
abbrev S1x512x3 : Shape := ⟨3, ![1, 512, 3]⟩
abbrev S1x3x2048 : Shape := ⟨3, ![1, 3, 2048]⟩
abbrev S1x512x1 : Shape := ⟨3, ![1, 512, 1]⟩
abbrev S1x1x2048 : Shape := ⟨3, ![1, 1, 2048]⟩
abbrev S1x2048 : Shape := ⟨2, ![1, 2048]⟩
abbrev S512x3 : Shape := ⟨2, ![512, 3]⟩
abbrev S3x2048 : Shape := ⟨2, ![3, 2048]⟩
abbrev S512x2048 : Shape := ⟨2, ![512, 2048]⟩
abbrev S512x1 : Shape := ⟨2, ![512, 1]⟩
abbrev S512 : Shape := ⟨1, ![512]⟩
abbrev S2048 : Shape := ⟨1, ![2048]⟩
abbrev S16x2048 : Shape := ⟨2, ![16, 2048]⟩
abbrev S_ : Shape := ⟨0, ![]⟩

abbrev nBuf : Space → Nat
  | .hbm => 18
  | .vmem => 9
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x3x2048, .f32⟩
  | .hbm, ⟨3, _⟩ => ⟨S16x2048x1, .f32⟩
  | .hbm, ⟨4, _⟩ => ⟨S16x1x2048, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x2048, .f32⟩
  | .local _ .vmem, ⟨3, _⟩ => ⟨S1x3x2048, .f32⟩
  | .local _ .vmem, ⟨4, _⟩ => ⟨S1x512x1, .f32⟩
  | .local _ .vmem, ⟨5, _⟩ => ⟨S1x512x1, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_15 : BitVec 32 := 0#32
  let v43 : BitVec 1 := Scalar.cmpi .ne v42 c0_i32_15
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x2048x3_S16x3x2048_0_2_1 : S16x2048x3.Transposes [0, 2, 1] S16x3x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S512x3_o0_0_S512x1 : S512x3.Slices ![0, 0] S512x1
  slices_S3x2048_o0_0_S1x2048 : S3x2048.Slices ![0, 0] S1x2048
  broadcasts_S512x1_S512x2048 : S512x1.Broadcasts S512x2048
  broadcasts_S1x2048_S512x2048 : S1x2048.Broadcasts S512x2048
  slices_S512x3_o0_1_S512x1 : S512x3.Slices ![0, 1] S512x1
  slices_S3x2048_o1_0_S1x2048 : S3x2048.Slices ![1, 0] S1x2048
  slices_S512x3_o0_2_S512x1 : S512x3.Slices ![0, 2] S512x1
  slices_S3x2048_o2_0_S1x2048 : S3x2048.Slices ![2, 0] S1x2048
  reduces_S512x2048_S512 : S512x2048.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x2048_S2048 : S512x2048.Reduces [0] S2048
  shapeCasts_S2048_S1x2048 : S2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S16x2048x1_S16x2048 : S16x2048x1.ShapeCasts S16x2048
  shapeCasts_S16x1x2048_S16x2048 : S16x1x2048.ShapeCasts S16x2048
  reducesTo_S16x2048_S_d0_1 : S16x2048.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S16x2048x3.size a
  hwx0_0 : ∀ i : grid0.Coords, EltTy.bits .f32 = 32 ∨ (Rect.block (s := S16x2048x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S16x3x2048.size a
  hwx0_1 : ∀ i : grid0.Coords, EltTy.bits .f32 = 32 ∨ (Rect.block (s := S16x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x2048x1.size a
  hwx0_2 : ∀ i : grid0.Coords, EltTy.bits .f32 = 32 ∨ (Rect.block (s := S16x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .f32 = 32 ∨ (Rect.block (s := S16x1x2048) S1x1x2048.size (cc0_transform_3 i) (hinb0_3 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x2048x3 : Shape := ⟨3, ![16, 2048, 3]⟩
abbrev S16x2048x1x3 : Shape := ⟨4, ![16, 2048, 1, 3]⟩
abbrev S16x1x2048x3 : Shape := ⟨4, ![16, 1, 2048, 3]⟩
abbrev S16x2048x2048x3 : Shape := ⟨4, ![16, 2048, 2048, 3]⟩
abbrev S_ : Shape := ⟨0, ![]⟩
abbrev S16x2048x2048 : Shape := ⟨3, ![16, 2048, 2048]⟩
abbrev S16x2048 : Shape := ⟨2, ![16, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x1x3, .f32⟩
  | .hbm, ⟨3, _⟩ => ⟨S16x1x2048x3, .f32⟩
  | .hbm, ⟨4, _⟩ => ⟨S16x2048x2048x3, .f32⟩
  | .hbm, ⟨5, _⟩ => ⟨S16x2048x2048x3, .f32⟩
  | .hbm, ⟨6, _⟩ => ⟨S16x2048x2048x3, .f32⟩
  | .hbm, ⟨7, _⟩ => ⟨S16x2048x2048x3, .f32⟩
  | .hbm, ⟨8, _⟩ => ⟨S_, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S16x2048x3_S16x2048x1x3_0_1_3 : S16x2048x3.BroadcastsInDim S16x2048x1x3 (![0, 1, 3] : Fin 3 → Fin S16x2048x1x3.rank)
  bcast_S16x2048x3_S16x1x2048x3_0_2_3 : S16x2048x3.BroadcastsInDim S16x1x2048x3 (![0, 2, 3] : Fin 3 → Fin S16x1x2048x3.rank)
  bcast_S16x2048x1x3_S16x2048x2048x3_0_1_2_3 : S16x2048x1x3.BroadcastsInDim S16x2048x2048x3 (![0, 1, 2, 3] : Fin 4 → Fin S16x2048x2048x3.rank)
  bcast_S16x1x2048x3_S16x2048x2048x3_0_1_2_3 : S16x1x2048x3.BroadcastsInDim S16x2048x2048x3 (![0, 1, 2, 3] : Fin 4 → Fin S16x2048x2048x3.rank)
  reducesTo_S16x2048x2048x3_S16x2048x2048_d3 : S16x2048x2048x3.ReducesTo [3] S16x2048x2048
  h_S_ : 0 < S_.numel
  reducesTo_S16x2048x2048_S16x2048_d2 : S16x2048x2048.ReducesTo [2] S16x2048
  reducesTo_S16x2048x2048_S16x2048_d1 : S16x2048x2048.ReducesTo [1] S16x2048
  reducesTo_S16x2048_S_d0_1 : S16x2048.ReducesTo [0, 1] S_

variable [Facts₀]

class Facts : Prop extends Facts₀ where

variable [Facts]
-- ==== Proof.ChamferSpec.lean ====
/-
  The chamfer distance between two batches of point clouds, as a function of the two argument arrays over the extended
  reals: the squared distance of a predicted point to a target point (a sum of three squared coordinate differences),
  for every predicted point its smallest squared distance to a target point, for every target point its smallest
  squared distance to a predicted point (infima over 2048 points: the infimum of an empty family is +∞, the value both
  programs start a minimum from), and the sum of the two batch means. Below them the laws of the minimum both programs
  lean on: a fold of min from +∞ over a finite range is the infimum, and the infimum over the first 512·(n+1) rows is
  the minimum of the infimum over the first 512·n rows and the infimum over one more block of 512 rows.
-/
import Idealize.ShloMosaic.PureOps.Ideal
import Idealize.ShloMosaic.PureOps.Ideal.Laws
import Idealize.ShloMosaic.Lib.ValueIdx
import Idealize.ShloMosaic.Lib.IdealHost

noncomputable section

namespace Cert.Chamfer

open Idealize.ShloMosaic Idealize.ShloMosaic.ValueIdx

/-- A batch of 16 clouds of 2048 points in three coordinates. -/
abbrev Clouds : Shape := ⟨3, ![16, 2048, 3]⟩
/-- One number per batch member and point. -/
abbrev PerPoint : Shape := ⟨2, ![16, 2048]⟩
/-- The scalar shape. -/
abbrev Scalar0 : Shape := ⟨0, ![]⟩

/-- One coordinate's squared difference between predicted point i and target point j of batch member b. -/
def sqDiff (x y : Clouds.Idx → EReal) (b : Fin 16) (i j : Fin 2048) (d : Fin 3) : EReal :=
  (x (ix3 b i d) - y (ix3 b j d)) * (x (ix3 b i d) - y (ix3 b j d))

/-- The squared distance between predicted point i and target point j of batch member b. -/
def sqDist (x y : Clouds.Idx → EReal) (b : Fin 16) (i j : Fin 2048) : EReal :=
  sqDiff x y b i j 0 + sqDiff x y b i j 1 + sqDiff x y b i j 2

/-- For each predicted point, the squared distance to its nearest target point. -/
def nearestTarget (x y : Clouds.Idx → EReal) : PerPoint.Idx → EReal :=
  fun k => ⨅ j : Fin 2048, sqDist x y (k 0) (k 1) j

/-- For each target point, the squared distance to its nearest predicted point. -/
def nearestPred (x y : Clouds.Idx → EReal) : PerPoint.Idx → EReal :=
  fun k => ⨅ i : Fin 2048, sqDist x y (k 0) i (k 1)

/-- The two batch means added (and multiplied by the coefficient one), as the host computes them from the two arrays of
    minima: each a sum from zero over both axes divided by 32768. -/
def loss (hr : PerPoint.ReducesTo [0, 1] Scalar0) (hu : 0 < Scalar0.numel) (a b : PerPoint.Idx → EReal) :
    Scalar0.Idx → EReal :=
  mulf (F := Ideal) (constant (F := Ideal) Scalar0 .f32 0x3F800000#32)
    (addf (F := Ideal)
      (Host.divf (F := Ideal) (Host.reduceAdd (F := Ideal) (φ := .f32) a (constant (F := Ideal) Scalar0 .f32 0x00000000#32) hr hu)
        (constant (F := Ideal) Scalar0 .f32 0x47000000#32))
      (Host.divf (F := Ideal) (Host.reduceAdd (F := Ideal) (φ := .f32) b (constant (F := Ideal) Scalar0 .f32 0x00000000#32) hr hu)
        (constant (F := Ideal) Scalar0 .f32 0x47000000#32)))

/-- The chamfer loss of the two argument arrays. -/
def chamfer (hr : PerPoint.ReducesTo [0, 1] Scalar0) (hu : 0 < Scalar0.numel) (x y : Clouds.Idx → EReal) :
    Scalar0.Idx → EReal :=
  loss hr hu (nearestTarget x y) (nearestPred x y)

/-! ## The minimum -/

/-- The f32 pattern of +∞ is the top of the extended reals. -/
theorem ofBits_inf : Ideal.ofBits .f32 0x7F800000#32 = (⊤ : EReal) := by simp [Ideal.ofBits, Ideal.ieee]

/-- A fold of min from +∞ over a whole finite range is the infimum over it. -/
theorem fold_min_top {n : ℕ} (f : Fin n → EReal) :
    (Finset.univ : Finset (Fin n)).fold min (⊤ : EReal) f = ⨅ k : Fin n, f k := by
  refine eq_of_forall_le_iff fun z => ?_
  rw [Finset.le_fold_min, le_iInf_iff]
  exact ⟨fun h k => h.2 k (Finset.mem_univ k), fun h => ⟨le_top, fun k _ => h k⟩⟩

/-- A fold of min from +∞ over every index of a finite type is the infimum over it. -/
theorem fold_min_eq_iInf {ι : Type} (s : Finset ι) (hs : ∀ k, k ∈ s) (init : EReal) (hinit : init = ⊤) (f : ι → EReal) :
    s.fold min init f = ⨅ k, f k := by
  refine eq_of_forall_le_iff fun z => ?_
  rw [Finset.le_fold_min, le_iInf_iff, hinit]
  exact ⟨fun h k => h.2 k (hs k), fun h => ⟨le_top, fun k _ => h k⟩⟩

/-- The infimum of g over the rows below k. -/
def belowInf (g : Fin 2048 → EReal) (k : ℕ) : EReal := ⨅ i : Fin 2048, ⨅ _ : i.val < k, g i

theorem le_belowInf_iff (g : Fin 2048 → EReal) (k : ℕ) (z : EReal) :
    z ≤ belowInf g k ↔ ∀ i : Fin 2048, i.val < k → z ≤ g i := by
  unfold belowInf
  simp only [le_iInf_iff]

/-- Below row 0 there is nothing: +∞. -/
theorem belowInf_zero (g : Fin 2048 → EReal) : belowInf g 0 = ⊤ := by
  refine le_antisymm le_top ?_
  rw [le_belowInf_iff]
  intro i hi
  exact absurd hi (Nat.not_lt_zero _)

/-- Below row 2048 is every row. -/
theorem belowInf_all (g : Fin 2048 → EReal) : belowInf g 2048 = ⨅ i : Fin 2048, g i := by
  refine eq_of_forall_le_iff fun z => ?_
  rw [le_belowInf_iff, le_iInf_iff]
  exact ⟨fun h i => h i i.isLt, fun h i _ => h i⟩

/-- One more block of 512 rows: the infimum below row 512·(n+1) is the minimum of the infimum below row 512·n and the
    infimum over the block's rows 512·n + p. -/
theorem belowInf_block (g : Fin 2048 → EReal) (n : ℕ) (hn : n < 4) :
    min (belowInf g (512 * n)) (⨅ p : Fin 512, g ⟨512 * n + p.val, by have := p.isLt; omega⟩)
      = belowInf g (512 * (n + 1)) := by
  refine eq_of_forall_le_iff fun z => ?_
  rw [le_min_iff, le_belowInf_iff, le_belowInf_iff, le_iInf_iff]
  constructor
  · rintro ⟨h1, h2⟩ i hi
    by_cases hlt : i.val < 512 * n
    · exact h1 i hlt
    · have hp : i.val - 512 * n < 512 := by omega
      have h3 := h2 ⟨i.val - 512 * n, hp⟩
      have e : (⟨512 * n + (⟨i.val - 512 * n, hp⟩ : Fin 512).val, by have := i.isLt; show 512 * n + (i.val - 512 * n) < 2048; omega⟩ : Fin 2048) = i :=
        Fin.ext (by show 512 * n + (i.val - 512 * n) = i.val; omega)
      rw [e] at h3
      exact h3
  · intro h
    exact ⟨fun i hi => h i (by omega), fun p => h _ (by show 512 * n + p.val < 512 * (n + 1); have := p.isLt; omega)⟩

end Cert.Chamfer

end
-- ==== Proof.KernelPayload.lean ====
/-
  The kernel body's arithmetic on one pair of blocks, read at an index over the extended reals. From a block of 512
  predicted points (three coordinates each) and the whole block of 2048 target points (coordinate-major), the body forms
  the 512 by 2048 tile of squared distances, coordinate by coordinate from zero; its minimum along the columns, from +∞,
  is each predicted point's nearest target; its minimum along the rows, from +∞, taken together with what the
  accumulator held, is the running nearest predicted point of each target.
-/
import proofs.«172340_j14645838479503_1_alg».proof.Proof.Gen.KernelIdeal.Skeleton
import proofs.«172340_j14645838479503_1_alg».proof.Proof.ChamferSpec
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open Cert.Chamfer

/-- A column broadcast along the rows reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Coordinate o of predicted point p of the block, as the body spreads it over the tile's row p. -/
theorem predCoord (x0 : Vec Ideal S1x512x3 .f32) (o : ℕ) (ho : o < 3) (hsl : S512x3.Slices ![0, o] S512x1)
    (p : Fin 512) (q : Fin 2048) :
    broadcastTo S512x2048 (extractStridedSlice S512x1 ![0, o] (shapeCast S512x3 x0 shapeCasts_S1x512x3_S512x3) hsl)
      broadcasts_S512x1_S512x2048 (ix2 p q) = x0 (ix3 (0 : Fin 1) p (⟨o, ho⟩ : Fin 3)) := by
  refine (broadcastTo_a1_ab_apply _ _ p q).trans ?_
  refine (slice2_axis1_apply o _ hsl p (0 : Fin 1) (⟨o, ho⟩ : Fin 3) (by simp)).trans ?_
  exact shapeCast_1ab_ab_apply x0 _ p (⟨o, ho⟩ : Fin 3)

/-- Coordinate o of target point q, as the body spreads it over the tile's column q. -/
theorem targCoord (x1 : Vec Ideal S1x3x2048 .f32) (o : ℕ) (ho : o < 3) (hsl : S3x2048.Slices ![o, 0] S1x2048)
    (p : Fin 512) (q : Fin 2048) :
    broadcastTo S512x2048 (extractStridedSlice S1x2048 ![o, 0] (shapeCast S3x2048 x1 shapeCasts_S1x3x2048_S3x2048) hsl)
      broadcasts_S1x2048_S512x2048 (ix2 p q) = x1 (ix3 (0 : Fin 1) (⟨o, ho⟩ : Fin 3) q) := by
  refine (broadcastTo_1b_ab_apply _ _ p q).trans ?_
  refine (slice2_axis0_apply o _ hsl (0 : Fin 1) q (⟨o, ho⟩ : Fin 3) (by simp)).trans ?_
  exact shapeCast_1ab_ab_apply x1 _ (⟨o, ho⟩ : Fin 3) q

/-- One coordinate's squared difference between row p of the predicted block and column q of the target block. -/
def tileSqDiff (x0 : Vec Ideal S1x512x3 .f32) (x1 : Vec Ideal S1x3x2048 .f32) (p : Fin 512) (q : Fin 2048) (d : Fin 3) : EReal :=
  (x0 (ix3 (0 : Fin 1) p d) - x1 (ix3 (0 : Fin 1) d q)) * (x0 (ix3 (0 : Fin 1) p d) - x1 (ix3 (0 : Fin 1) d q))

/-- The tile's entry (p, q): the three squared coordinate differences added. -/
def tileSqDist (x0 : Vec Ideal S1x512x3 .f32) (x1 : Vec Ideal S1x3x2048 .f32) (p : Fin 512) (q : Fin 2048) : EReal :=
  tileSqDiff x0 x1 p q 0 + tileSqDiff x0 x1 p q 1 + tileSqDiff x0 x1 p q 2

/-- The tile of squared distances at (p, q). -/
theorem tile_apply (x0 : Vec Ideal S1x512x3 .f32) (x1 : Vec Ideal S1x3x2048 .f32) (p : Fin 512) (q : Fin 2048) :
    k0_pay4 (F := Ideal) x0 x1 (ix2 p q) = tileSqDist x0 x1 p q := by
  unfold k0_pay4
  simp only [addf_apply, mulf_apply, subf_apply, broadcast_apply,
    predCoord x0 0 (by decide) slices_S512x3_o0_0_S512x1, predCoord x0 1 (by decide) slices_S512x3_o0_1_S512x1,
    predCoord x0 2 (by decide) slices_S512x3_o0_2_S512x1, targCoord x1 0 (by decide) slices_S3x2048_o0_0_S1x2048,
    targCoord x1 1 (by decide) slices_S3x2048_o1_0_S1x2048, targCoord x1 2 (by decide) slices_S3x2048_o2_0_S1x2048]
  simp only [Ideal.ofBits_def, Ideal.ofBits_zero_f32, zero_add]
  rfl

/-- A minimum-reduction from +∞ along one axis is the infimum over that axis's coordinates. -/
theorem minReduce_apply {s t : Shape} {a : Fin s.rank} (src : FVec Ideal s .f32) (h : s.Reduces [a] t)
    (hφ : FKind.Formats .f32) (hacc : (0x7F800000#32 : BitVec 32) = 0x7F800000#32) (j : t.Idx) :
    multiReduction .minimumf [a] t src 0x7F800000#32 h hφ hacc j = ⨅ k : Fin (s.size a), src (h.lift j k) :=
  ((multiReduction_minimumf_eq_fold src 0x7F800000#32 h hφ hacc j).trans (h.fold_filter_drop_single _ _ src j)).trans
    (fold_min_eq_iInf Finset.univ Finset.mem_univ _ ofBits_inf _)

/-- Each predicted point's nearest target within the resident target block: the tile's minimum along row p, from +∞. -/
theorem rowMin_apply (x0 : Vec Ideal S1x512x3 .f32) (x1 : Vec Ideal S1x3x2048 .f32) (p : Fin 512) :
    k0_pay5 (F := Ideal) x0 x1 (ix3 (0 : Fin 1) p (0 : Fin 1)) = ⨅ q : Fin 2048, tileSqDist x0 x1 p q := by
  unfold k0_pay5
  refine (shapeCast_ab_1ab_apply _ shapeCasts_S512x1_S1x512x1 (0 : Fin 1) p (0 : Fin 1)).trans ?_
  refine (shapeCast_apply _ shapeCasts_S512_S512x1 (ix2 p (0 : Fin 1)) (ix1 p) (by
    rw [Shape.rowMajor_val_one, Shape.rowMajor_val_two]; show p.val = p.val * 1 + 0; omega)).trans ?_
  refine (minReduce_apply (k0_pay4 (F := Ideal) x0 x1) reduces_S512x2048_S512 _ _ (ix1 p)).trans ?_
  refine iInf_congr fun q => ?_
  refine Eq.trans ?_ (tile_apply x0 x1 p q)
  exact congrArg (k0_pay4 (F := Ideal) x0 x1)
    (funext fun a => Fin.ext (by match a with | ⟨0, _⟩ => rfl | ⟨1, _⟩ => rfl))

/-- The accumulator's update at target q: what it held, and the tile's minimum along column q, from +∞. -/
theorem colMin_apply (x0 : Vec Ideal S1x512x3 .f32) (x1 : Vec Ideal S1x3x2048 .f32) (acc : Vec Ideal S1x2048 .f32) (q : Fin 2048) :
    k0_pay6 (F := Ideal) x0 x1 acc (ix2 (0 : Fin 1) q) = min (acc (ix2 (0 : Fin 1) q)) (⨅ p : Fin 512, tileSqDist x0 x1 p q) := by
  unfold k0_pay6
  show min (acc (ix2 (0 : Fin 1) q)) _ = _
  refine congrArg (min (acc (ix2 (0 : Fin 1) q))) ?_
  refine (shapeCast_a_1a_apply _ shapeCasts_S2048_S1x2048 (0 : Fin 1) q).trans ?_
  refine (minReduce_apply (k0_pay4 (F := Ideal) x0 x1) reduces_S512x2048_S2048 _ _ (ix1 q)).trans ?_
  refine iInf_congr fun p => ?_
  refine Eq.trans ?_ (tile_apply x0 x1 p q)
  exact congrArg (k0_pay4 (F := Ideal) x0 x1)
    (funext fun a => Fin.ext (by match a with | ⟨0, _⟩ => rfl | ⟨1, _⟩ => rfl))

/-- What the body stores back into the accumulator, at target q. -/
theorem accUpdate_apply (x0 : Vec Ideal S1x512x3 .f32) (x1 : Vec Ideal S1x3x2048 .f32) (acc : Vec Ideal S1x2048 .f32) (q : Fin 2048) :
    k0_pay1 (F := Ideal) (k0_pay6 (F := Ideal) x0 x1 acc) (ix2 (0 : Fin 1) q)
      = min (acc (ix2 (0 : Fin 1) q)) (⨅ p : Fin 512, tileSqDist x0 x1 p q) := by
  unfold k0_pay1
  rw [shapeCast_self]
  exact colMin_apply x0 x1 acc q

/-- The copy of the accumulator into the second output's block reads the accumulator at the same target. -/
theorem colOut_apply (v : Vec Ideal S1x2048 .f32) (q : Fin 2048) :
    k0_pay2 (F := Ideal) v (ix3 (0 : Fin 1) (0 : Fin 1) q) = v (ix2 (0 : Fin 1) q) := by
  unfold k0_pay2
  exact shapeCast_ab_1ab_apply v _ (0 : Fin 1) (0 : Fin 1) q

/-- The reset value of the accumulator is +∞ everywhere. -/
theorem reset_apply (j : S1x2048.Idx) : k0_pay3 (F := Ideal) j = (⊤ : EReal) := by
  unfold k0_pay3
  rw [shapeCast_self]
  exact ofBits_inf

end Cert.KernelIdeal.Payload

end
-- ==== Proof.KernelBlocks.lean ====
/-
  Where the kernel's blocks lie in the argument arrays. The grid's point t works on batch member t / 4 and on the tile of
  predicted rows 512·(t mod 4) … 512·(t mod 4) + 511; the target block is the whole cloud of that batch member, handed to
  the kernel coordinate-major (the host transposes it before the launch). So the tile of squared distances the body
  forms at point t is the specification's squared distance of those rows to every target point.
-/
import proofs.«172340_j14645838479503_1_alg».proof.Proof.Gen.KernelIdeal.Frame
import proofs.«172340_j14645838479503_1_alg».proof.Proof.KernelPayload
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Chamfer Cert.KernelIdeal.Payload

variable (m : (ℓ : Loc nD τ sig) → Buf (Elt Ideal) ℓ)

/-- The predicted clouds as launched. -/
abbrev predArr (c : Dev nD) : S16x2048x3.Idx → EReal := m ((c : Thread nD τ).loc main_arg0)
/-- The target clouds as launched. -/
abbrev targArr (c : Dev nD) : S16x2048x3.Idx → EReal := m ((c : Thread nD τ).loc main_arg1)
/-- The block of predicted points at point t. -/
abbrev predBlk (c : Dev nD) (t : Fin cfg0.N) : Vec Ideal S1x512x3 .f32 := iblk m c 0 t
/-- The block of target points at point t. -/
abbrev targBlk (c : Dev nD) (t : Fin cfg0.N) : Vec Ideal S1x3x2048 .f32 := iblk m c 1 t

theorem lt64 (t : Fin cfg0.N) : t.val < 64 := lt_of_lt_of_eq t.isLt (show cfg0.N = 64 from N_0)

/-- The batch member point t works on. -/
def member (t : Fin cfg0.N) : Fin 16 := ⟨t.val / 4, by have := lt64 t; omega⟩
/-- Row p of point t's tile, as a row of the cloud. -/
def row (t : Fin cfg0.N) (p : Fin 512) : Fin 2048 := ⟨512 * (t.val % 4) + p.val, by have := p.isLt; omega⟩

/-- The predicted window's block index: the batch member, the tile, coordinate block zero. -/
theorem idx_pred : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, win0_0.index t (0 : Fin 3) = t.val / 4 ∧ win0_0.index t (1 : Fin 3) = t.val % 4
    ∧ win0_0.index t (2 : Fin 3) = 0)

/-- The target window's block index: the batch member, the whole cloud. -/
theorem idx_targ : ∀ t : Fin cfg0.N, win0_1.index t (0 : Fin 3) = t.val / 4 ∧ win0_1.index t (1 : Fin 3) = 0
    ∧ win0_1.index t (2 : Fin 3) = 0 :=
  (by decide +kernel : ∀ t : Fin grid0.N, win0_1.index t (0 : Fin 3) = t.val / 4 ∧ win0_1.index t (1 : Fin 3) = 0
    ∧ win0_1.index t (2 : Fin 3) = 0)

/-- Row p, coordinate d of the predicted block at point t is row 512·(t mod 4) + p of batch member t / 4. -/
theorem predBlk_apply (c : Dev nD) (t : Fin cfg0.N) (p : Fin 512) (d : Fin 3) :
    predBlk m c t (ix3 (0 : Fin 1) p d) = predArr m c (ix3 (member t) (row t p) d) := by
  obtain ⟨h0, h1, h2⟩ := idx_pred t
  show iblk m c 0 t (ix3 (0 : Fin 1) p d) = _
  unfold iblk
  rw [View.read_apply]
  refine (congrFun (V_main_arg0 m c) _).trans ?_
  show m ((c : Thread nD τ).loc main_arg0) _ = m ((c : Thread nD τ).loc main_arg0) _
  congr 1
  funext a
  apply Fin.ext
  match a with
  | ⟨0, _⟩ => show win0_0.index t (0 : Fin 3) * 1 + 1 * 0 = t.val / 4; omega
  | ⟨1, _⟩ => show win0_0.index t (1 : Fin 3) * 512 + 1 * p.val = 512 * (t.val % 4) + p.val; omega
  | ⟨2, _⟩ => show win0_0.index t (2 : Fin 3) * 3 + 1 * d.val = d.val; omega

/-- The array the target window stages is the target clouds with their last two axes swapped. -/
theorem targT_eq (c : Dev nD) : (V m c main_v0 : S16x3x2048.Idx → EReal)
    = transpose S16x3x2048 [0, 2, 1] (targArr m c) transposes_S16x2048x3_S16x3x2048_0_2_1 := by
  show StableHlo.after hostOps0 (fun b => m (c, b)) (Proc.devRef .tc main_v0) = _
  after_results

/-- Coordinate d of target point q in the block at point t is that coordinate of point q of batch member t / 4. -/
theorem targBlk_apply (c : Dev nD) (t : Fin cfg0.N) (d : Fin 3) (q : Fin 2048) :
    targBlk m c t (ix3 (0 : Fin 1) d q) = targArr m c (ix3 (member t) q d) := by
  obtain ⟨h0, h1, h2⟩ := idx_targ t
  show iblk m c 1 t (ix3 (0 : Fin 1) d q) = _
  unfold iblk
  rw [View.read_apply]
  refine (congrFun (targT_eq m c) _).trans ?_
  refine Eq.trans ?_ (transpose_ix3_021_apply (targArr m c) transposes_S16x2048x3_S16x3x2048_0_2_1 (member t) d q)
  congr 1
  funext a
  apply Fin.ext
  match a with
  | ⟨0, _⟩ => show win0_1.index t (0 : Fin 3) * 1 + 1 * 0 = t.val / 4; omega
  | ⟨1, _⟩ => show win0_1.index t (1 : Fin 3) * 3 + 1 * d.val = d.val; omega
  | ⟨2, _⟩ => show win0_1.index t (2 : Fin 3) * 2048 + 1 * q.val = q.val; omega

/-- The tile's entry (p, q) at point t is the squared distance of predicted row 512·(t mod 4) + p to target point q. -/
theorem tile_eq (c : Dev nD) (t : Fin cfg0.N) (p : Fin 512) (q : Fin 2048) :
    tileSqDist (predBlk m c t) (targBlk m c t) p q = sqDist (predArr m c) (targArr m c) (member t) (row t p) q := by
  unfold tileSqDist tileSqDiff sqDist sqDiff
  rw [predBlk_apply m c t p 0, predBlk_apply m c t p 1, predBlk_apply m c t p 2,
    targBlk_apply m c t 0 q, targBlk_apply m c t 1 q, targBlk_apply m c t 2 q]

end Cert.KernelIdeal.Blocks

end
-- ==== Proof.KernelPieces.lean ====
/-
  What each control case of the kernel body leaves in its buffers, as values of the blocks it was handed. At the first
  tile of a batch member the body resets the accumulator to +∞ before it folds the tile in; at the later tiles it folds
  the tile into what the accumulator held; at the last tile it also copies the accumulator out. Every case writes the
  tile's row minima to the first output.
-/
import proofs.«172340_j14645838479503_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the first output holds the tile's row minima. -/
theorem rowMin_A (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x512x1 .f32) (harg4 : arg4.IsWhole) (arg5 : Memref sig .tc .vmem S1x1x2048 .f32) (harg5 : arg5.IsWhole) (arg6 : Memref sig .tc .vmem S1x2048 .f32) (harg6 : arg6.IsWhole) (hc0 : cond0_0 i) (hc1 : ¬cond0_1 i)
    (x0 : Vec F S1x512x3 .f32) (x1 : Vec F S1x3x2048 .f32) :
    out0_A_2 c i arg2 harg2 arg3 harg3 arg4 harg4 arg5 harg5 arg6 harg6 hc0 hc1 x0 x1 = k0_pay5 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  sl_unfold_words
  rw [View.canon_unit_zero hz3]
  simp only [View.readAt_eq_ld, harg2.read_unread, harg3.read_unread, harg6.read_unread, View.ld_unit_zero (S := S1x512x3) hz3, View.ld_unit_zero (S := S1x3x2048) hz3, View.ld_unit_zero (S := S1x2048) hz2, View.readCov_unit_zero (S := S1x2048) _ hz2]

/-- First tile: the accumulator holds the tile's column minima folded into the reset value. -/
theorem acc_A (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x512x1 .f32) (harg4 : arg4.IsWhole) (arg5 : Memref sig .tc .vmem S1x1x2048 .f32) (harg5 : arg5.IsWhole) (arg6 : Memref sig .tc .vmem S1x2048 .f32) (harg6 : arg6.IsWhole) (hc0 : cond0_0 i) (hc1 : ¬cond0_1 i)
    (x0 : Vec F S1x512x3 .f32) (x1 : Vec F S1x3x2048 .f32) :
    sout0_A_0 c i arg2 harg2 arg3 harg3 arg4 harg4 arg5 harg5 arg6 harg6 hc0 hc1 x0 x1 = k0_pay1 (k0_pay6 x0 x1 (k0_pay3 (F := F))) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x2048) hz2]
  simp only [View.readAt_eq_ld, harg2.read_unread, harg3.read_unread, harg6.read_unread, View.ld_unit_zero (S := S1x512x3) hz3, View.ld_unit_zero (S := S1x3x2048) hz3, View.ld_unit_zero (S := S1x2048) hz2, View.readCov_unit_zero (S := S1x2048) _ hz2]

/-- A middle tile: the first output holds the tile's row minima. -/
theorem rowMin_B (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x512x1 .f32) (harg4 : arg4.IsWhole) (arg5 : Memref sig .tc .vmem S1x1x2048 .f32) (harg5 : arg5.IsWhole) (arg6 : Memref sig .tc .vmem S1x2048 .f32) (harg6 : arg6.IsWhole) (hc0 : ¬cond0_0 i) (hc1 : ¬cond0_1 i)
    (x0 : Vec F S1x512x3 .f32) (x1 : Vec F S1x3x2048 .f32) (xs0 : Vec F S1x2048 .f32) :
    out0_B_2 c i arg2 harg2 arg3 harg3 arg4 harg4 arg5 harg5 arg6 harg6 hc0 hc1 x0 x1 xs0 = k0_pay5 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  sl_unfold_words
  rw [View.canon_unit_zero hz3]
  simp only [View.readAt_eq_ld, harg2.read_unread, harg3.read_unread, harg6.read_unread, View.ld_unit_zero (S := S1x512x3) hz3, View.ld_unit_zero (S := S1x3x2048) hz3, View.ld_unit_zero (S := S1x2048) hz2, View.readCov_unit_zero (S := S1x2048) _ hz2]

/-- A middle tile: the accumulator holds the tile's column minima folded into what it held. -/
theorem acc_B (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x512x1 .f32) (harg4 : arg4.IsWhole) (arg5 : Memref sig .tc .vmem S1x1x2048 .f32) (harg5 : arg5.IsWhole) (arg6 : Memref sig .tc .vmem S1x2048 .f32) (harg6 : arg6.IsWhole) (hc0 : ¬cond0_0 i) (hc1 : ¬cond0_1 i)
    (x0 : Vec F S1x512x3 .f32) (x1 : Vec F S1x3x2048 .f32) (xs0 : Vec F S1x2048 .f32) :
    sout0_B_0 c i arg2 harg2 arg3 harg3 arg4 harg4 arg5 harg5 arg6 harg6 hc0 hc1 x0 x1 xs0 = k0_pay1 (k0_pay6 x0 x1 xs0) := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S1x512x3) hz3, View.ld_unit_zero (S := S1x3x2048) hz3, View.ld_unit_zero (S := S1x2048) hz2, View.readCov_unit_zero (S := S1x2048) _ hz2]

/-- Last tile: the first output holds the tile's row minima. -/
theorem rowMin_C (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x512x1 .f32) (harg4 : arg4.IsWhole) (arg5 : Memref sig .tc .vmem S1x1x2048 .f32) (harg5 : arg5.IsWhole) (arg6 : Memref sig .tc .vmem S1x2048 .f32) (harg6 : arg6.IsWhole) (hc0 : ¬cond0_0 i) (hc1 : cond0_1 i)
    (x0 : Vec F S1x512x3 .f32) (x1 : Vec F S1x3x2048 .f32) (xs0 : Vec F S1x2048 .f32) :
    out0_C_2 c i arg2 harg2 arg3 harg3 arg4 harg4 arg5 harg5 arg6 harg6 hc0 hc1 x0 x1 xs0 = k0_pay5 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread, View.ld_unit_zero (S := S1x512x3) hz3, View.ld_unit_zero (S := S1x3x2048) hz3, View.ld_unit_zero (S := S1x2048) hz2, View.readCov_unit_zero (S := S1x2048) _ hz2]

/-- Last tile: the accumulator holds the tile's column minima folded into what it held. -/
theorem acc_C (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x512x1 .f32) (harg4 : arg4.IsWhole) (arg5 : Memref sig .tc .vmem S1x1x2048 .f32) (harg5 : arg5.IsWhole) (arg6 : Memref sig .tc .vmem S1x2048 .f32) (harg6 : arg6.IsWhole) (hc0 : ¬cond0_0 i) (hc1 : cond0_1 i)
    (x0 : Vec F S1x512x3 .f32) (x1 : Vec F S1x3x2048 .f32) (xs0 : Vec F S1x2048 .f32) :
    sout0_C_0 c i arg2 harg2 arg3 harg3 arg4 harg4 arg5 harg5 arg6 harg6 hc0 hc1 x0 x1 xs0 = k0_pay1 (k0_pay6 x0 x1 xs0) := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S1x512x3) hz3, View.ld_unit_zero (S := S1x3x2048) hz3, View.ld_unit_zero (S := S1x2048) hz2, View.readCov_unit_zero (S := S1x2048) _ hz2]

/-- Last tile: the second output holds the accumulator's final contents. -/
theorem colOut_C (c : Dev nD) (i : grid0.Coords) (arg2 : Memref sig .tc .vmem S1x512x3 .f32) (harg2 : arg2.IsWhole) (arg3 : Memref sig .tc .vmem S1x3x2048 .f32) (harg3 : arg3.IsWhole) (arg4 : Memref sig .tc .vmem S1x512x1 .f32) (harg4 : arg4.IsWhole) (arg5 : Memref sig .tc .vmem S1x1x2048 .f32) (harg5 : arg5.IsWhole) (arg6 : Memref sig .tc .vmem S1x2048 .f32) (harg6 : arg6.IsWhole) (hc0 : ¬cond0_0 i) (hc1 : cond0_1 i)
    (x0 : Vec F S1x512x3 .f32) (x1 : Vec F S1x3x2048 .f32) (xs0 : Vec F S1x2048 .f32) :
    out0_C_3 c i arg2 harg2 arg3 harg3 arg4 harg4 arg5 harg5 arg6 harg6 hc0 hc1 x0 x1 xs0 = k0_pay2 (k0_pay1 (k0_pay6 x0 x1 xs0)) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread, View.ld_unit_zero (S := S1x512x3) hz3, View.ld_unit_zero (S := S1x3x2048) hz3, View.ld_unit_zero (S := S1x2048) hz2, View.readCov_unit_zero (S := S1x2048) _ hz2]

end Cert.KernelIdeal.Pieces

end
-- ==== Proof.KernelRunning.lean ====
/-
  What the kernel's buffers hold after each grid point, as values of the argument arrays. The first output's block at
  point t holds, for each of the tile's 512 predicted rows, the nearest target of batch member t / 4. The accumulator
  after point t holds, for each target point, the infimum of its squared distances to the predicted rows below
  512·(t mod 4 + 1) of that batch member: reset at the member's first tile, one more block of rows at each later tile
  (by induction on the point). After the member's last tile that is every predicted row, and the body copies it out.
-/
import proofs.«172340_j14645838479503_1_alg».proof.Proof.KernelBlocks
import proofs.«172340_j14645838479503_1_alg».proof.Proof.KernelPieces

set_option maxRecDepth 16384

noncomputable section

namespace Cert.KernelIdeal.Running

open Cert.KernelIdeal Cert.KernelIdeal.Gen Idealize.ShloMosaic Idealize.ShloMosaic.TcCoe Idealize.SL.Sem
open Idealize.ShloMosaic.ValueIdx Cert.Chamfer Cert.KernelIdeal.Payload Cert.KernelIdeal.Pieces Cert.KernelIdeal.Blocks

variable (m : (ℓ : Loc nD τ sig) → Buf (Elt Ideal) ℓ)

/-- At every point the first output's block holds the tile's row minima. -/
theorem rowOut_eq (c : Dev nD) (t : Fin cfg0.N) :
    (outsAt0 m c t.val t.isLt).1 = k0_pay5 (F := Ideal) (predBlk m c t) (targBlk m c t) := by
  by_cases h0 : t.val % 4 = 0
  · have h1 : ¬t.val % 4 = 3 := by omega
    rw [outsAt0_A m c t h0 h1]
    dsimp only
    exact rowMin_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 4 = 3
    · rw [outsAt0_C m c t h0 h1]
      dsimp only
      exact rowMin_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact rowMin_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- At a batch member's first tile the accumulator is the tile's column minima folded into the reset value. -/
theorem acc_first (c : Dev nD) (t : Fin cfg0.N) (h0 : t.val % 4 = 0) :
    (outsAt0 m c t.val t.isLt).2.2
      = k0_pay1 (F := Ideal) (k0_pay6 (F := Ideal) (predBlk m c t) (targBlk m c t) (k0_pay3 (F := Ideal))) := by
  have h1 : ¬t.val % 4 = 3 := by omega
  rw [outsAt0_A m c t h0 h1]
  dsimp only
  exact acc_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- At a later tile it is the tile's column minima folded into what the point before left. -/
theorem acc_later (c : Dev nD) (t : Fin cfg0.N) (h0 : ¬t.val % 4 = 0) :
    (outsAt0 m c t.val t.isLt).2.2
      = k0_pay1 (F := Ideal) (k0_pay6 (F := Ideal) (predBlk m c t) (targBlk m c t) (outsAt0 m c (t.val - 1) (Nat.lt_of_le_of_lt (Nat.sub_le _ _) t.isLt)).2.2) := by
  by_cases h1 : t.val % 4 = 3
  · rw [outsAt0_C m c t h0 h1]
    dsimp only
    exact acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]
    dsimp only
    exact acc_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- At a batch member's last tile the second output's block is a copy of the accumulator. -/
theorem colOut_eq (c : Dev nD) (t : Fin cfg0.N) (h1 : t.val % 4 = 3) :
    (outsAt0 m c t.val t.isLt).2.1 = k0_pay2 (F := Ideal) (outsAt0 m c t.val t.isLt).2.2 := by
  have h0 : ¬t.val % 4 = 0 := by omega
  rw [outsAt0_C m c t h0 h1]
  dsimp only
  exact (colOut_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans
    (congrArg (k0_pay2 (F := Ideal)) (acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).symm)

/-- The squared distances of target point q of batch member b to the predicted rows. -/
abbrev toTarget (c : Dev nD) (b : Fin 16) (q : Fin 2048) : Fin 2048 → EReal :=
  fun i => sqDist (predArr m c) (targArr m c) b i q

/-- One tile's column minimum at target q: the infimum over the tile's block of predicted rows. -/
theorem tileCol_eq (c : Dev nD) (t : Fin cfg0.N) (q : Fin 2048) :
    (⨅ p : Fin 512, tileSqDist (predBlk m c t) (targBlk m c t) p q)
      = ⨅ p : Fin 512, toTarget m c (member t) q ⟨512 * (t.val % 4) + p.val, by have := p.isLt; omega⟩ :=
  iInf_congr fun p => tile_eq m c t p q

/-- One more block of rows, from a value known to be the infimum below the block. -/
theorem belowInf_step (g : Fin 2048 → EReal) (k : ℕ) (hk : k < 4) (a : EReal) (ha : a = belowInf g (512 * k)) :
    min a (⨅ p : Fin 512, g ⟨512 * k + p.val, by have := p.isLt; omega⟩) = belowInf g (512 * (k + 1)) := by
  rw [ha]
  exact belowInf_block g k hk

/-- THE RUNNING MINIMUM. After point n the accumulator holds, at target q, the infimum of the squared distances to the
    predicted rows below 512·(n mod 4 + 1) of batch member n / 4. -/
theorem acc_eq (c : Dev nD) (q : Fin 2048) : ∀ (n : ℕ) (h : n < cfg0.N),
    (outsAt0 m c n h).2.2 (ix2 (0 : Fin 1) q)
      = belowInf (toTarget m c (member ⟨n, h⟩) q) (512 * (n % 4 + 1)) := by
  intro n
  induction n with
  | zero =>
    intro h
    have e' : (outsAt0 m c 0 h).2.2 = k0_pay1 (F := Ideal) (k0_pay6 (F := Ideal) (predBlk m c ⟨0, h⟩)
        (targBlk m c ⟨0, h⟩) (k0_pay3 (F := Ideal))) := acc_first m c ⟨0, h⟩ rfl
    rw [e', accUpdate_apply, reset_apply, tileCol_eq]
    exact belowInf_step (toTarget m c (member ⟨0, h⟩) q) (0 % 4) (by omega) ⊤
      (by rw [Nat.zero_mod, Nat.mul_zero, belowInf_zero])
  | succ n ih =>
    intro h
    have hN : n + 1 < 64 := lt_of_lt_of_eq h (show cfg0.N = 64 from N_0)
    by_cases h0 : (n + 1) % 4 = 0
    · have e' : (outsAt0 m c (n + 1) h).2.2 = k0_pay1 (F := Ideal) (k0_pay6 (F := Ideal) (predBlk m c ⟨n + 1, h⟩)
          (targBlk m c ⟨n + 1, h⟩) (k0_pay3 (F := Ideal))) := acc_first m c ⟨n + 1, h⟩ h0
      rw [e', accUpdate_apply, reset_apply, tileCol_eq]
      exact belowInf_step (toTarget m c (member ⟨n + 1, h⟩) q) ((n + 1) % 4) (by omega) ⊤
        (by rw [h0, Nat.mul_zero, belowInf_zero])
    · have e' : (outsAt0 m c (n + 1) h).2.2 = k0_pay1 (F := Ideal) (k0_pay6 (F := Ideal) (predBlk m c ⟨n + 1, h⟩)
          (targBlk m c ⟨n + 1, h⟩) (outsAt0 m c n (Nat.lt_of_succ_lt h)).2.2) := acc_later m c ⟨n + 1, h⟩ h0
      rw [e', accUpdate_apply, ih (Nat.lt_of_succ_lt h), tileCol_eq]
      have hmem : member ⟨n, Nat.lt_of_succ_lt h⟩ = member ⟨n + 1, h⟩ := Fin.ext (by show n / 4 = (n + 1) / 4; omega)
      have hrows : 512 * (n % 4 + 1) = 512 * ((n + 1) % 4) := by omega
      exact belowInf_step (toTarget m c (member ⟨n + 1, h⟩) q) ((n + 1) % 4) (by omega) _ (by rw [hmem, hrows])

/-- After a batch member's last tile the accumulator holds each target point's nearest predicted point. -/
theorem acc_last (c : Dev nD) (t : Fin cfg0.N) (h1 : t.val % 4 = 3) (q : Fin 2048) :
    (outsAt0 m c t.val t.isLt).2.2 (ix2 (0 : Fin 1) q) = nearestPred (predArr m c) (targArr m c) (ix2 (member t) q) := by
  rw [acc_eq m c q t.val t.isLt, h1]
  exact belowInf_all _

end Cert.KernelIdeal.Running

end
-- ==== Proof.KernelArrays.lean ====
/-
  The two output arrays after the run. Every grid point writes its block of the first output back, and the blocks of
  the 64 points tile the array: it ends holding every predicted point's nearest target. The second output is written
  back only after a batch member's last tile, one block per batch member, and those 16 blocks tile it: it ends holding
  every target point's nearest predicted point.
-/
import proofs.«172340_j14645838479503_1_alg».proof.Proof.KernelRunning
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.Chamfer Cert.KernelIdeal.Payload Cert.KernelIdeal.Blocks Cert.KernelIdeal.Running

variable (m : (ℓ : Loc nD τ sig) → Buf (Elt Ideal) ℓ)

/-- The first output array: entry (b, i, 0) is predicted point i's nearest target in batch member b. -/
abbrev nearTArr (c : Dev nD) : S16x2048x1.Idx → EReal :=
  fun i => nearestTarget (predArr m c) (targArr m c) (ix2 (i 0 : Fin 16) (i 1 : Fin 2048))
/-- The second output array: entry (b, 0, j) is target point j's nearest predicted point in batch member b. -/
abbrev nearPArr (c : Dev nD) : S16x1x2048.Idx → EReal :=
  fun i => nearestPred (predArr m c) (targArr m c) (ix2 (i 0 : Fin 16) (i 2 : Fin 2048))

/-- The first output's block index: the batch member, the tile, zero. -/
theorem idx_out1 : ∀ t : Fin cfg0.N, win0_2.index t (0 : Fin 3) = t.val / 4 ∧ win0_2.index t (1 : Fin 3) = t.val % 4
    ∧ win0_2.index t (2 : Fin 3) = 0 :=
  (by decide +kernel : ∀ t : Fin grid0.N, win0_2.index t (0 : Fin 3) = t.val / 4 ∧ win0_2.index t (1 : Fin 3) = t.val % 4
    ∧ win0_2.index t (2 : Fin 3) = 0)

/-- The second output's block index: the batch member, zero, zero. -/
theorem idx_out2 : ∀ t : Fin cfg0.N, win0_3.index t (0 : Fin 3) = t.val / 4 ∧ win0_3.index t (1 : Fin 3) = 0
    ∧ win0_3.index t (2 : Fin 3) = 0 :=
  (by decide +kernel : ∀ t : Fin grid0.N, win0_3.index t (0 : Fin 3) = t.val / 4 ∧ win0_3.index t (1 : Fin 3) = 0
    ∧ win0_3.index t (2 : Fin 3) = 0)

/-! ## The first output -/

/-- What point t writes back is its block of the array of nearest targets. -/
theorem flushed1_eq (c : Dev nD) (t : Fin cfg0.N) :
    (dats m 0 c).flushed 2 t = ((cfg0.win 2).blk t).view.read (Elt Ideal) (nearTArr m c) := by
  obtain ⟨h0, h1, h2⟩ := idx_out1 t
  show (cfg0.win 2).cut (grid0.coords t) ((dats m 0 c).after 2 t) = _
  rw [after0_2, rowOut_eq]
  funext j
  obtain ⟨u, p, v, rfl⟩ : ∃ (u : Fin 1) (p : Fin 512) (v : Fin 1), j = ix3 u p v := ⟨j 0, j 1, j 2, eq_ix3 j⟩
  obtain rfl : u = 0 := Subsingleton.elim _ _
  obtain rfl : v = 0 := Subsingleton.elim _ _
  rw [View.read_apply]
  show k0_pay5 (F := Ideal) (predBlk m c t) (targBlk m c t) (ix3 (0 : Fin 1) p (0 : Fin 1)) = _
  rw [rowMin_apply]
  show _ = ⨅ q : Fin 2048, sqDist (predArr m c) (targArr m c) _ _ q
  refine iInf_congr fun q => ?_
  rw [tile_eq]
  congr 1
  · apply Fin.ext
    show t.val / 4 = win0_2.index t (0 : Fin 3) * 1 + 1 * 0
    omega
  · apply Fin.ext
    show 512 * (t.val % 4) + p.val = win0_2.index t (1 : Fin 3) * 512 + 1 * p.val
    omega

/-- An index of the first output is in point t's block iff each coordinate is in the block's range. -/
theorem mem_blk1 (t : Fin cfg0.N) (i : S16x2048x1.Idx) :
    i ∈ ((cfg0.win 2).blk t).view.set ↔ ∀ a : Fin 3, win0_2.index t a * S1x512x1.size a ≤ (i a).val
      ∧ (i a).val < win0_2.index t a * S1x512x1.size a + S1x512x1.size a := by
  show i ∈ ((View.whole main_v1_0).slice (win0_2.rect t)).set ↔ _
  rw [View.set_slice_whole, Rect.mem_set_unit]
  exact Iff.rfl

/-- Entry (b, i, 0) lies in the block of point 4·b + i / 512. -/
theorem cover1 (i : S16x2048x1.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 1 := (i 2).isLt
  have hlt : 4 * (i 0).val + (i 1).val / 512 < cfg0.N := by rw [show cfg0.N = 64 from N_0]; omega
  obtain ⟨h0, h1, h2⟩ := idx_out1 ⟨4 * (i 0).val + (i 1).val / 512, hlt⟩
  refine ⟨⟨4 * (i 0).val + (i 1).val / 512, hlt⟩, flush0_2 _, ?_⟩
  rw [mem_blk1]
  intro a
  match a with
  | ⟨0, _⟩ =>
    show win0_2.index _ (0 : Fin 3) * 1 ≤ (i 0).val ∧ (i 0).val < win0_2.index _ (0 : Fin 3) * 1 + 1
    rw [h0]; show (4 * (i 0).val + (i 1).val / 512) / 4 * 1 ≤ (i 0).val ∧ (i 0).val < (4 * (i 0).val + (i 1).val / 512) / 4 * 1 + 1
    omega
  | ⟨1, _⟩ =>
    show win0_2.index _ (1 : Fin 3) * 512 ≤ (i 1).val ∧ (i 1).val < win0_2.index _ (1 : Fin 3) * 512 + 512
    rw [h1]; show (4 * (i 0).val + (i 1).val / 512) % 4 * 512 ≤ (i 1).val ∧ (i 1).val < (4 * (i 0).val + (i 1).val / 512) % 4 * 512 + 512
    omega
  | ⟨2, _⟩ =>
    show win0_2.index _ (2 : Fin 3) * 1 ≤ (i 2).val ∧ (i 2).val < win0_2.index _ (2 : Fin 3) * 1 + 1
    rw [h2]; omega

/-- The first output ends holding every predicted point's nearest target. -/
theorem final1 (c : Dev nD) : (dats m 0 c).arrAt 2 cfg0.N = nearTArr m c :=
  (dats m 0 c).arrAt_eq_of_cover 2 (nearTArr m c) (fun t _ => flushed1_eq m c t) cover1

/-! ## The second output -/

/-- What a batch member's last point writes back is its block of the array of nearest predicted points. -/
theorem flushed2_eq (c : Dev nD) (t : Fin cfg0.N) (hf : (cfg0.win 3).flush t = true) :
    (dats m 0 c).flushed 3 t = ((cfg0.win 3).blk t).view.read (Elt Ideal) (nearPArr m c) := by
  have h1 : t.val % 4 = 3 := (flush0_3 t).mp hf
  obtain ⟨e0, e1, e2⟩ := idx_out2 t
  show (cfg0.win 3).cut (grid0.coords t) ((dats m 0 c).after 3 t) = _
  rw [after0_3, colOut_eq m c t h1]
  funext j
  obtain ⟨u, v, q, rfl⟩ : ∃ (u : Fin 1) (v : Fin 1) (q : Fin 2048), j = ix3 u v q := ⟨j 0, j 1, j 2, eq_ix3 j⟩
  obtain rfl : u = 0 := Subsingleton.elim _ _
  obtain rfl : v = 0 := Subsingleton.elim _ _
  rw [View.read_apply]
  show k0_pay2 (F := Ideal) (outsAt0 m c t.val t.isLt).2.2 (ix3 (0 : Fin 1) (0 : Fin 1) q) = _
  rw [colOut_apply, acc_last m c t h1 q]
  show nearestPred (predArr m c) (targArr m c) (ix2 (member t) q) = nearestPred (predArr m c) (targArr m c) (ix2 _ _)
  congr 2
  · apply Fin.ext
    show t.val / 4 = win0_3.index t (0 : Fin 3) * 1 + 1 * 0
    omega
  · apply Fin.ext
    show q.val = win0_3.index t (2 : Fin 3) * 2048 + 1 * q.val
    omega

/-- An index of the second output is in point t's block iff each coordinate is in the block's range. -/
theorem mem_blk2 (t : Fin cfg0.N) (i : S16x1x2048.Idx) :
    i ∈ ((cfg0.win 3).blk t).view.set ↔ ∀ a : Fin 3, win0_3.index t a * S1x1x2048.size a ≤ (i a).val
      ∧ (i a).val < win0_3.index t a * S1x1x2048.size a + S1x1x2048.size a := by
  show i ∈ ((View.whole main_v1_1).slice (win0_3.rect t)).set ↔ _
  rw [View.set_slice_whole, Rect.mem_set_unit]
  exact Iff.rfl

/-- Entry (b, 0, j) lies in the block the last point of batch member b writes back. -/
theorem cover2 (i : S16x1x2048.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 2048 := (i 2).isLt
  have hlt : 4 * (i 0).val + 3 < cfg0.N := by rw [show cfg0.N = 64 from N_0]; omega
  obtain ⟨h0, h1, h2⟩ := idx_out2 ⟨4 * (i 0).val + 3, hlt⟩
  refine ⟨⟨4 * (i 0).val + 3, hlt⟩, (flush0_3 _).mpr (by show (4 * (i 0).val + 3) % 4 = 3; omega), ?_⟩
  rw [mem_blk2]
  intro a
  match a with
  | ⟨0, _⟩ =>
    show win0_3.index _ (0 : Fin 3) * 1 ≤ (i 0).val ∧ (i 0).val < win0_3.index _ (0 : Fin 3) * 1 + 1
    rw [h0]; show (4 * (i 0).val + 3) / 4 * 1 ≤ (i 0).val ∧ (i 0).val < (4 * (i 0).val + 3) / 4 * 1 + 1
    omega
  | ⟨1, _⟩ =>
    show win0_3.index _ (1 : Fin 3) * 1 ≤ (i 1).val ∧ (i 1).val < win0_3.index _ (1 : Fin 3) * 1 + 1
    rw [h1]; omega
  | ⟨2, _⟩ =>
    show win0_3.index _ (2 : Fin 3) * 2048 ≤ (i 2).val ∧ (i 2).val < win0_3.index _ (2 : Fin 3) * 2048 + 2048
    rw [h2]; omega

/-- The second output ends holding every target point's nearest predicted point. -/
theorem final2 (c : Dev nD) : (dats m 0 c).arrAt 3 cfg0.N = nearPArr m c :=
  (dats m 0 c).arrAt_eq_of_cover 3 (nearPArr m c) (flushed2_eq m c) cover2

end Cert.KernelIdeal.Arrays

end
-- ==== Proof.KernelResult.lean ====
/-
  The kernel program's result. After the launch the host drops the unit axis of each output array, sums each over both
  axes from zero, divides each sum by 32768, adds the two quotients and multiplies by one: the specification's last step
  applied to the array of nearest targets and the array of nearest predicted points. So the program ends with the
  chamfer loss of its two arguments, which it leaves unchanged.
-/
import proofs.«172340_j14645838479503_1_alg».proof.Proof.KernelArrays
import Idealize.ShloMosaic.Lib.StableHlo.Run
import Idealize.ShloMosaic.Lib.Pipeline.FrameSuffix

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.Chamfer Cert.KernelIdeal.Blocks Cert.KernelIdeal.Arrays

variable (m : (ℓ : Loc nD τ sig) → Buf (Elt Ideal) ℓ) (ρ : Dev nD → PrngReg)

/-- The first output with its trailing unit axis dropped is the array of nearest targets. -/
theorem out1_reshaped (c : Dev nD) :
    shapeCast S16x2048 (nearTArr m c) shapeCasts_S16x2048x1_S16x2048 = nearestTarget (predArr m c) (targArr m c) := by
  funext i
  obtain ⟨b, k, rfl⟩ : ∃ (b : Fin 16) (k : Fin 2048), i = ix2 b k := ⟨i 0, i 1, eq_ix2 i⟩
  exact shapeCast_apply (nearTArr m c) shapeCasts_S16x2048x1_S16x2048 (ix2 b k) (ix3 b k (0 : Fin 1)) (by
    rw [Shape.rowMajor_val_three, Shape.rowMajor_val_two]
    show (b.val * 2048 + k.val) * 1 + 0 = b.val * 2048 + k.val
    omega)

/-- The second output with its middle unit axis dropped is the array of nearest predicted points. -/
theorem out2_reshaped (c : Dev nD) :
    shapeCast S16x2048 (nearPArr m c) shapeCasts_S16x1x2048_S16x2048 = nearestPred (predArr m c) (targArr m c) := by
  funext i
  obtain ⟨b, k, rfl⟩ : ∃ (b : Fin 16) (k : Fin 2048), i = ix2 b k := ⟨i 0, i 1, eq_ix2 i⟩
  exact shapeCast_apply (nearPArr m c) shapeCasts_S16x1x2048_S16x2048 (ix2 b k) (ix3 b (0 : Fin 1) k) (by
    rw [Shape.rowMajor_val_three, Shape.rowMajor_val_two]
    show (b.val * 1 + 0) * 2048 + k.val = b.val * 2048 + k.val
    omega)

/-- What the host operations after the launch leave in the result buffer: the chamfer loss of the arguments. -/
theorem result_eq (c : Dev nD) :
    Pipeline.afterTail₀ cfgs (dats m) 0 (V0 m) [hostOps1] c main_v9
      = chamfer reducesTo_S16x2048_S_d0_1 h_S_ (predArr m c) (targArr m c) := by
  have e1 : Pipeline.withArrays (cfgs 0).spec c (V0 m c) (fun w => (dats m 0 c).arrAt w (cfgs 0).N)
      (Proc.devRef .tc main_v1_0) = nearTArr m c :=
    (Pipeline.withArrays_arr spec0 launch0.win.arr_inj c _ _ 2).trans (final1 m c)
  have e2 : Pipeline.withArrays (cfgs 0).spec c (V0 m c) (fun w => (dats m 0 c).arrAt w (cfgs 0).N)
      (Proc.devRef .tc main_v1_1) = nearPArr m c :=
    (Pipeline.withArrays_arr spec0 launch0.win.arr_inj c _ _ 3).trans (final2 m c)
  unfold Pipeline.afterTail₀
  show StableHlo.after hostOps1 _ (Proc.devRef .tc main_v9) = _
  after_results
  show loss reducesTo_S16x2048_S_d0_1 h_S_
      (shapeCast S16x2048 (Pipeline.withArrays (cfgs 0).spec c (V0 m c) (fun w => (dats m 0 c).arrAt w (cfgs 0).N)
        (Proc.devRef .tc main_v1_0)) shapeCasts_S16x2048x1_S16x2048)
      (shapeCast S16x2048 (Pipeline.withArrays (cfgs 0).spec c (V0 m c) (fun w => (dats m 0 c).arrAt w (cfgs 0).N)
        (Proc.devRef .tc main_v1_1)) shapeCasts_S16x1x2048_S16x2048) = _
  rw [e1, e2, out1_reshaped, out2_reshaped]
  rfl

/-- Every weakly fair execution of the kernel program terminates with the chamfer loss of its arguments in the result
    buffer and the arguments unchanged. -/
theorem run : θ_run defs (onTc (τ := τ) (main (F := Ideal))) ⟨m, fun _ => 0, ρ⟩ fun r => ∀ c : Dev nD,
      r.2.mem ((c.tc : Thread nD τ).loc main_v9) = chamfer reducesTo_S16x2048_S_d0_1 h_S_ (predArr m c) (targArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v9 (Pipeline.mem_restRefs_of main_v9 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference program's stages read as the chamfer specification. Its array of pairwise squared distances is, at
  (b, i, j), the sum from zero over the three coordinates of the squared coordinate differences of predicted point i and
  target point j; its two minimum-reductions from +∞ along the target axis and along the predicted axis are the two
  infima; what it does with them afterwards is the specification's last step word for word.
-/
import proofs.«172340_j14645838479503_1_alg».proof.Proof.Gen.ReferenceIdeal.Read
import proofs.«172340_j14645838479503_1_alg».proof.Proof.ChamferSpec

noncomputable section

namespace Cert.ReferenceIdeal.RefValue

open Cert.ReferenceIdeal Cert.ReferenceIdeal.Gen Cert.ReferenceIdeal.Read Idealize.ShloMosaic Idealize.ShloMosaic.ValueIdx
open Cert.Chamfer

/-- The pairwise array at (b, i, j) is the squared distance of predicted point i to target point j. -/
theorem pairwise_apply (x0 x1 : (⟨S16x2048x3, .f32⟩ : BufTy).Contents (Elt Ideal)) (b : Fin 16) (i j : Fin 2048) :
    val_main_v6 (F := Ideal) x0 x1 (ix3 b i j) = sqDist x0 x1 b i j := by
  rw [val_main_v6_apply, Fin.sum_univ_three]
  simp only [val_main_v5_apply, val_main_v4_apply, val_main_v2_apply, val_main_v3_apply, val_main_v0_apply,
    val_main_v1_apply, val_main_cst_apply, Ideal.mulf_def, Ideal.subf_def, Ideal.ofBits_def, Ideal.ofBits_zero_f32, zero_add]
  have e0 : ∀ k : Fin 3, idx_main_v0 (idx_main_v2 (idx_main_v6 (ix3 b i j) k)) = ix3 b i k := fun k =>
    funext fun a => Fin.ext (by match a with | ⟨0, _⟩ => rfl | ⟨1, _⟩ => rfl | ⟨2, _⟩ => rfl)
  have e1 : ∀ k : Fin 3, idx_main_v1 (idx_main_v3 (idx_main_v6 (ix3 b i j) k)) = ix3 b j k := fun k =>
    funext fun a => Fin.ext (by match a with | ⟨0, _⟩ => rfl | ⟨1, _⟩ => rfl | ⟨2, _⟩ => rfl)
  rw [e0, e0, e0, e1, e1, e1]
  rfl

/-- The minimum along the target axis: for each predicted point its nearest target. -/
theorem nearestTarget_eq (x0 x1 : (⟨S16x2048x3, .f32⟩ : BufTy).Contents (Elt Ideal)) :
    val_main_v7 (F := Ideal) x0 x1 = nearestTarget x0 x1 := by
  funext k
  obtain ⟨b, i, rfl⟩ : ∃ (b : Fin 16) (i : Fin 2048), k = ix2 b i := ⟨k 0, k 1, eq_ix2 k⟩
  have hred : S16x2048x2048.Reduces [2] S16x2048 := by decide
  unfold val_main_v7 nearestTarget
  rw [Host.reduce_eq_fold_single FloatOps.minimumf _ _ reducesTo_S16x2048x2048_S16x2048_d2 hred h_S_ (ix2 b i)]
  refine (fold_min_eq_iInf Finset.univ Finset.mem_univ _ ofBits_inf _).trans ?_
  refine iInf_congr fun j => ?_
  refine Eq.trans ?_ (pairwise_apply x0 x1 b i j)
  exact congrArg (val_main_v6 (F := Ideal) x0 x1)
    (funext fun a => Fin.ext (by match a with | ⟨0, _⟩ => rfl | ⟨1, _⟩ => rfl | ⟨2, _⟩ => rfl))

/-- The minimum along the predicted axis: for each target point its nearest predicted point. -/
theorem nearestPred_eq (x0 x1 : (⟨S16x2048x3, .f32⟩ : BufTy).Contents (Elt Ideal)) :
    val_main_v8 (F := Ideal) x0 x1 = nearestPred x0 x1 := by
  funext k
  obtain ⟨b, j, rfl⟩ : ∃ (b : Fin 16) (j : Fin 2048), k = ix2 b j := ⟨k 0, k 1, eq_ix2 k⟩
  have hred : S16x2048x2048.Reduces [1] S16x2048 := by decide
  unfold val_main_v8 nearestPred
  rw [Host.reduce_eq_fold_single FloatOps.minimumf _ _ reducesTo_S16x2048x2048_S16x2048_d1 hred h_S_ (ix2 b j)]
  refine (fold_min_eq_iInf Finset.univ Finset.mem_univ _ ofBits_inf _).trans ?_
  refine iInf_congr fun i => ?_
  refine Eq.trans ?_ (pairwise_apply x0 x1 b i j)
  exact congrArg (val_main_v6 (F := Ideal) x0 x1)
    (funext fun a => Fin.ext (by match a with | ⟨0, _⟩ => rfl | ⟨1, _⟩ => rfl | ⟨2, _⟩ => rfl))

/-- The reference's result is the chamfer loss of its two arguments. -/
theorem result_eq (x0 x1 : (⟨S16x2048x3, .f32⟩ : BufTy).Contents (Elt Ideal)) :
    val_main_v14 (F := Ideal) x0 x1 = chamfer reducesTo_S16x2048_S_d0_1 h_S_ x0 x1 := by
  show loss reducesTo_S16x2048_S_d0_1 h_S_ (val_main_v7 (F := Ideal) x0 x1) (val_main_v8 (F := Ideal) x0 x1) = _
  rw [nearestTarget_eq, nearestPred_eq]
  rfl

end Cert.ReferenceIdeal.RefValue

end
-- ==== Proof.lean ====
/-
  The chamfer distance computed tile by tile equals the chamfer distance computed from the full table of squared
  distances, over the extended reals.

  Both programs take two batches of 16 point clouds (2048 points, three coordinates). The reference builds every squared
  distance d(b, i, j) = Σ_k (p(b, i, k) − t(b, j, k))², takes its minimum over j and its minimum over i (both from +∞),
  and adds the two means. The kernel never builds the table: at grid point (b, n) it forms the 512 × 2048 tile of rows
  512·n … 512·n + 511 of batch member b, writes the tile's row minima straight to the first output, and folds the tile's
  column minima into an accumulator that it resets to +∞ at n = 0 and copies to the second output at n = 3; the host then
  takes the two means and adds them as the reference does.

  The two sides meet at one specification (ChamferSpec): the row minimum of a tile is already the minimum over all
  targets, because the whole target cloud is resident; the accumulator after tile n is the infimum over the first
  512·(n + 1) predicted rows (induction on the grid point: the infimum over the rows below 512·(n + 1) is the minimum of
  the infimum below 512·n and the infimum over one more block of 512), so after tile 3 it is the minimum over all
  predicted points. Sums of three terms from zero agree by associativity; a fold of min from +∞ is an infimum. Nothing
  here needs the inputs to be finite: only associativity and commutativity of + and of min on the extended reals are used.
  The ideal pass rewrote nothing, so the kernel's idealization is its own text read over the extended reals.
-/
import proofs.«172340_j14645838479503_1_alg».proof.Defs
import proofs.«172340_j14645838479503_1_alg».proof.Proof.Gen.Kernel
import proofs.«172340_j14645838479503_1_alg».proof.Proof.Gen.Kernel.Frame
import proofs.«172340_j14645838479503_1_alg».proof.Proof.Gen.KernelIdeal
import proofs.«172340_j14645838479503_1_alg».proof.Proof.Gen.KernelIdeal.Frame
import proofs.«172340_j14645838479503_1_alg».proof.Proof.Gen.ReferenceIdeal
import proofs.«172340_j14645838479503_1_alg».proof.Proof.Gen.ReferenceIdeal.Run
import proofs.«172340_j14645838479503_1_alg».proof.Proof.Gen.Pre_finite_inputs
import proofs.«172340_j14645838479503_1_alg».proof.Proof.KernelResult
import proofs.«172340_j14645838479503_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the two clouds, both programs end with the chamfer loss of those clouds. -/
theorem algebraic : Cert.algebraic_KernelIdeal_ReferenceIdeal := by
  intro m ρ m' ρ' _ hagree
  refine ⟨fun c => Cert.Chamfer.chamfer Cert.KernelIdeal.Gen.reducesTo_S16x2048_S_d0_1 Cert.KernelIdeal.Gen.h_S_
    (Cert.KernelIdeal.Blocks.predArr m c) (Cert.KernelIdeal.Blocks.targArr m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
